-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x64x64 : Shape := ⟨4, ![16, 256, 64, 64]⟩
abbrev S5x256x256 : Shape := ⟨3, ![5, 256, 256]⟩
abbrev S256 : Shape := ⟨1, ![256]⟩
abbrev S_ : Shape := ⟨0, ![]⟩

class Facts : Prop where
  bcast_S_S16x256x64x64 : S_.BroadcastsInDim S16x256x64x64 (![] : Fin 0 → Fin S16x256x64x64.rank)
  reducesTo_S16x256x64x64_S_d0_1_2_3 : S16x256x64x64.ReducesTo [0, 1, 2, 3] S_
  h_S_ : 0 < S_.numel
  bcast_S_S5x256x256 : S_.BroadcastsInDim S5x256x256 (![] : Fin 0 → Fin S5x256x256.rank)
  reducesTo_S5x256x256_S_d0_1_2 : S5x256x256.ReducesTo [0, 1, 2] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x256x64x64 .f32) (main_arg1 : FVec F S5x256x256 .f32) (main_arg2 : FVec F S256 .f32) : IVec S_ 1 :=
  let main_v0 : FVec F S16x256x64x64 .f32 := Host.absf main_arg0
  let main_cst : FVec F S_ .f32 := constant S_ .f32 0x7F800000#32
  let main_v1 : FVec F S16x256x64x64 .f32 := broadcastInDim S16x256x64x64 ![] bcast_S_S16x256x64x64 main_cst
  let main_v2 : IVec S16x256x64x64 1 := cmpf .olt main_v0 main_v1
  let main_c : IVec S_ 1 := constantI S_ 1 1#1
  let main_v3 : IVec S_ 1 := (fun x v => Host.reduce IntOp.andi x v reducesTo_S16x256x64x64_S_d0_1_2_3 h_S_) main_v2 main_c
  let main_v4 : FVec F S5x256x256 .f32 := Host.absf main_arg1
  let main_cst_0 : FVec F S_ .f32 := constant S_ .f32 0x7F800000#32
  let main_v5 : FVec F S5x256x256 .f32 := broadcastInDim S5x256x256 ![] bcast_S_S5x256x256 main_cst_0
  let main_v6 : IVec S5x256x256 1 := cmpf .olt main_v4 main_v5
  let main_c_1 : IVec S_ 1 := constantI S_ 1 1#1
  let main_v7 : IVec S_ 1 := (fun x v => Host.reduce IntOp.andi x v reducesTo_S5x256x256_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x256x64x64 : Shape := ⟨4, ![16, 256, 64, 64]⟩
abbrev S5x256x256 : Shape := ⟨3, ![5, 256, 256]⟩
abbrev S256 : Shape := ⟨1, ![256]⟩
abbrev S_ : Shape := ⟨0, ![]⟩
abbrev S5x256 : Shape := ⟨2, ![5, 256]⟩
abbrev S5x256x1 : Shape := ⟨3, ![5, 256, 1]⟩
abbrev S16x64x64x256 : Shape := ⟨4, ![16, 64, 64, 256]⟩
abbrev S1x256 : Shape := ⟨2, ![1, 256]⟩
abbrev S16x62x62x256 : Shape := ⟨4, ![16, 62, 62, 256]⟩
abbrev S1x64x64x256 : Shape := ⟨4, ![1, 64, 64, 256]⟩
abbrev S1x62x62x256 : Shape := ⟨4, ![1, 62, 62, 256]⟩
abbrev S64x64x256 : Shape := ⟨3, ![64, 64, 256]⟩
abbrev S4096x256 : Shape := ⟨2, ![4096, 256]⟩
abbrev S62x62x256 : Shape := ⟨3, ![62, 62, 256]⟩
abbrev S1x256x256 : Shape := ⟨3, ![1, 256, 256]⟩
abbrev S256x256 : Shape := ⟨2, ![256, 256]⟩
abbrev S1x1x256 : Shape := ⟨3, ![1, 1, 256]⟩
abbrev S16x256x62x62 : Shape := ⟨4, ![16, 256, 62, 62]⟩

abbrev nBuf : Space → Nat
  | .hbm => 22
  | .vmem => 6
  | .smem => 0
  | _ => 0

abbrev bufTy : (tb : Table) → Fin (tcTables nBuf tb) → BufTy
  | .hbm, ⟨0, _⟩ => ⟨S16x256x64x64, .f32⟩
  | .hbm, ⟨1, _⟩ => ⟨S5x256x256, .f32⟩
  | .hbm, ⟨2, _⟩ => ⟨S256, .f32⟩
  | .hbm, ⟨3, _⟩ => ⟨S_, .f32⟩
  | .hbm, ⟨4, _⟩ => ⟨S5x256, .f32⟩
  | .hbm, ⟨5, _⟩ => ⟨S5x256x1, .f32⟩
  | .hbm, ⟨6, _⟩ => ⟨S_, .f32⟩
  | .hbm, ⟨7, _⟩ => ⟨S5x256x1, .f32⟩
  | .hbm, ⟨8, _⟩ => ⟨S5x256x1, .f32⟩
  | .hbm, ⟨9, _⟩ => ⟨S5x256x256, .f32⟩
  | .hbm, ⟨10, _⟩ => ⟨S5x256x256, .f32⟩
  | .hbm, ⟨11, _⟩ => ⟨S5x256x256, .f32⟩
  | .hbm, ⟨12, _⟩ => ⟨S_, .f32⟩
  | .hbm, ⟨13, _⟩ => ⟨S5x256, .f32⟩
  | .hbm, ⟨14, _⟩ => ⟨S5x256x1, .f32⟩
  | .hbm, ⟨15, _⟩ => ⟨S5x256x1, .f32⟩
  | .hbm, ⟨16, _⟩ => ⟨S5x256x256, .f32⟩
  | .hbm, ⟨17, _⟩ => ⟨S5x256x256, .f32⟩
  | .hbm, ⟨18, _⟩ => ⟨S16x64x64x256, .f32⟩
  | .hbm, ⟨19, _⟩ => ⟨S1x256, .f32⟩
  | .hbm, ⟨20, _⟩ => ⟨S16x62x62x256, .f32⟩
  | .hbm, ⟨21, _⟩ => ⟨S16x256x62x62, .f32⟩
  | .local _ .vmem, ⟨0, _⟩ => ⟨S1x64x64x256, .f32⟩
  | .local _ .vmem, ⟨1, _⟩ => ⟨S1x64x64x256, .f32⟩
  | .local _ .vmem, ⟨2, _⟩ => ⟨S5x256x256, .f32⟩
  | .local _ .vmem, ⟨3, _⟩ => ⟨S1x256, .f32⟩
  | .local _ .vmem, ⟨4, _⟩ => ⟨S1x62x62x256, .f32⟩
  | .local _ .vmem, ⟨5, _⟩ => ⟨S1x62x62x256, .f32⟩
  | _, _ => ⟨S16x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x62x62x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S5x256x256_S5x256_d2 : S5x256x256.ReducesTo [2] S5x256
  h_S_ : 0 < S_.numel
  bcast_S5x256_S5x256x1_0_1 : S5x256.BroadcastsInDim S5x256x1 (![0, 1] : Fin 2 → Fin S5x256x1.rank)
  bcast_S_S5x256x1 : S_.BroadcastsInDim S5x256x1 (![] : Fin 0 → Fin S5x256x1.rank)
  bcast_S5x256x1_S5x256x256_0_1_2 : S5x256x1.BroadcastsInDim S5x256x256 (![0, 1, 2] : Fin 3 → Fin S5x256x256.rank)
  transposes_S16x256x64x64_S16x64x64x256_0_2_3_1 : S16x256x64x64.Transposes [0, 2, 3, 1] S16x64x64x256
  shapeCasts_S256_S1x256 : S256.ShapeCasts S1x256
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S4096x256 : S64x64x256.ShapeCasts S4096x256
  bitsLt_bf16_f32 : FTy.bits .bf16 < FTy.bits .f32
  inb_S5x256x256_S1x256x256_0_0_0 : ∀ a, (![0, 0, 0] : Fin 3 → Nat) a + S1x256x256.size a ≤ S5x256x256.size a
  h_S1x256x256 : 0 < S1x256x256.numel
  shapeCasts_S1x256x256_S256x256 : S1x256x256.ShapeCasts S256x256
  transposes_S256x256_p1_0_S256x256 : S256x256.Transposes [1, 0] S256x256
  shapeCasts_S4096x256_S64x64x256 : S4096x256.ShapeCasts S64x64x256
  slices_S64x64x256_o0_0_0_S62x62x256 : S64x64x256.Slices ![0, 0, 0] S62x62x256
  inb_S5x256x256_S1x256x256_1_0_0 : ∀ a, (![1, 0, 0] : Fin 3 → Nat) a + S1x256x256.size a ≤ S5x256x256.size a
  slices_S64x64x256_o0_2_0_S62x62x256 : S64x64x256.Slices ![0, 2, 0] S62x62x256
  inb_S5x256x256_S1x256x256_2_0_0 : ∀ a, (![2, 0, 0] : Fin 3 → Nat) a + S1x256x256.size a ≤ S5x256x256.size a
  slices_S64x64x256_o1_1_0_S62x62x256 : S64x64x256.Slices ![1, 1, 0] S62x62x256
  inb_S5x256x256_S1x256x256_3_0_0 : ∀ a, (![3, 0, 0] : Fin 3 → Nat) a + S1x256x256.size a ≤ S5x256x256.size a
  slices_S64x64x256_o2_0_0_S62x62x256 : S64x64x256.Slices ![2, 0, 0] S62x62x256
  inb_S5x256x256_S1x256x256_4_0_0 : ∀ a, (![4, 0, 0] : Fin 3 → Nat) a + S1x256x256.size a ≤ S5x256x256.size a
  slices_S64x64x256_o2_2_0_S62x62x256 : S64x64x256.Slices ![2, 2, 0] S62x62x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S62x62x256 : S1x1x256.Broadcasts S62x62x256
  inb_S1x62x62x256_S1x62x62x256_0_0_0_0 : ∀ a, (![0, 0, 0, 0] : Fin 4 → Nat) a + S1x62x62x256.size a ≤ S1x62x62x256.size a
  h_S1x62x62x256 : 0 < S1x62x62x256.numel
  shapeCasts_S1x62x62x256_S62x62x256 : S1x62x62x256.ShapeCasts S62x62x256
  shapeCasts_S62x62x256_S1x62x62x256 : S62x62x256.ShapeCasts S1x62x62x256
  transposes_S16x62x62x256_S16x256x62x62_0_3_1_2 : S16x62x62x256.Transposes [0, 3, 1, 2] S16x256x62x62
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x256.size a ≤ S16x64x64x256.size a
  hwx0_0 : ∀ i : grid0.Coords, EltTy.bits .f32 = 32 ∨ (Rect.block (s := S16x64x64x256) S1x64x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x256x256.size a ≤ S5x256x256.size a
  hwx0_1 : ∀ i : grid0.Coords, EltTy.bits .f32 = 32 ∨ (Rect.block (s := S5x256x256) S5x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x62x62x256.size a ≤ S16x62x62x256.size a
  hwx0_3 : ∀ i : grid0.Coords, EltTy.bits .f32 = 32 ∨ (Rect.block (s := S16x62x62x256) S1x62x62x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v9) S1x64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x62x62x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x256x64x64 : Shape := ⟨4, ![16, 256, 64, 64]⟩
abbrev S5x256x256 : Shape := ⟨3, ![5, 256, 256]⟩
abbrev S256 : Shape := ⟨1, ![256]⟩
abbrev S_ : Shape := ⟨0, ![]⟩
abbrev S5x256 : Shape := ⟨2, ![5, 256]⟩
abbrev S5x256x1 : Shape := ⟨3, ![5, 256, 1]⟩
abbrev S16x64x64x256 : Shape := ⟨4, ![16, 64, 64, 256]⟩
abbrev S16x62x62x256 : Shape := ⟨4, ![16, 62, 62, 256]⟩
abbrev S1x256x256 : Shape := ⟨3, ![1, 256, 256]⟩
abbrev S256x256 : Shape := ⟨2, ![256, 256]⟩
abbrev S1x1x1x256 : Shape := ⟨4, ![1, 1, 1, 256]⟩
abbrev S16x256x62x62 : Shape := ⟨4, ![16, 256, 62, 62]⟩

abbrev nBuf : Space → Nat
  | .hbm => 50
  | .vmem => 0
  | .smem => 0
  | _ => 0

abbrev bufTy : (tb : Table) → Fin (tcTables nBuf tb) → BufTy
  | .hbm, ⟨0, _⟩ => ⟨S16x256x64x64, .f32⟩
  | .hbm, ⟨1, _⟩ => ⟨S5x256x256, .f32⟩
  | .hbm, ⟨2, _⟩ => ⟨S256, .f32⟩
  | .hbm, ⟨3, _⟩ => ⟨S_, .f32⟩
  | .hbm, ⟨4, _⟩ => ⟨S5x256, .f32⟩
  | .hbm, ⟨5, _⟩ => ⟨S5x256x1, .f32⟩
  | .hbm, ⟨6, _⟩ => ⟨S_, .f32⟩
  | .hbm, ⟨7, _⟩ => ⟨S5x256x1, .f32⟩
  | .hbm, ⟨8, _⟩ => ⟨S5x256x1, .f32⟩
  | .hbm, ⟨9, _⟩ => ⟨S5x256x256, .f32⟩
  | .hbm, ⟨10, _⟩ => ⟨S5x256x256, .f32⟩
  | .hbm, ⟨11, _⟩ => ⟨S5x256x256, .f32⟩
  | .hbm, ⟨12, _⟩ => ⟨S_, .f32⟩
  | .hbm, ⟨13, _⟩ => ⟨S5x256, .f32⟩
  | .hbm, ⟨14, _⟩ => ⟨S5x256x1, .f32⟩
  | .hbm, ⟨15, _⟩ => ⟨S5x256x1, .f32⟩
  | .hbm, ⟨16, _⟩ => ⟨S5x256x256, .f32⟩
  | .hbm, ⟨17, _⟩ => ⟨S5x256x256, .f32⟩
  | .hbm, ⟨18, _⟩ => ⟨S16x64x64x256, .f32⟩
  | .hbm, ⟨19, _⟩ => ⟨S16x62x62x256, .f32⟩
  | .hbm, ⟨20, _⟩ => ⟨S1x256x256, .f32⟩
  | .hbm, ⟨21, _⟩ => ⟨S256x256, .f32⟩
  | .hbm, ⟨22, _⟩ => ⟨S16x62x62x256, .f32⟩
  | .hbm, ⟨23, _⟩ => ⟨S16x62x62x256, .f32⟩
  | .hbm, ⟨24, _⟩ => ⟨S1x256x256, .f32⟩
  | .hbm, ⟨25, _⟩ => ⟨S256x256, .f32⟩
  | .hbm, ⟨26, _⟩ => ⟨S16x62x62x256, .f32⟩
  | .hbm, ⟨27, _⟩ => ⟨S16x62x62x256, .f32⟩
  | .hbm, ⟨28, _⟩ => ⟨S16x62x62x256, .f32⟩
  | .hbm, ⟨29, _⟩ => ⟨S1x256x256, .f32⟩
  | .hbm, ⟨30, _⟩ => ⟨S256x256, .f32⟩
  | .hbm, ⟨31, _⟩ => ⟨S16x62x62x256, .f32⟩
  | .hbm, ⟨32, _⟩ => ⟨S16x62x62x256, .f32⟩
  | .hbm, ⟨33, _⟩ => ⟨S16x62x62x256, .f32⟩
  | .hbm, ⟨34, _⟩ => ⟨S1x256x256, .f32⟩
  | .hbm, ⟨35, _⟩ => ⟨S256x256, .f32⟩
  | .hbm, ⟨36, _⟩ => ⟨S16x62x62x256, .f32⟩
  | .hbm, ⟨37, _⟩ => ⟨S16x62x62x256, .f32⟩
  | .hbm, ⟨38, _⟩ => ⟨S16x62x62x256, .f32⟩
  | .hbm, ⟨39, _⟩ => ⟨S1x256x256, .f32⟩
  | .hbm, ⟨40, _⟩ => ⟨S256x256, .f32⟩
  | .hbm, ⟨41, _⟩ => ⟨S16x62x62x256, .f32⟩
  | .hbm, ⟨42, _⟩ => ⟨S16x62x62x256, .f32⟩
  | .hbm, ⟨43, _⟩ => ⟨S1x1x1x256, .f32⟩
  | .hbm, ⟨44, _⟩ => ⟨S16x62x62x256, .f32⟩
  | .hbm, ⟨45, _⟩ => ⟨S16x62x62x256, .f32⟩
  | .hbm, ⟨46, _⟩ => ⟨S_, .f32⟩
  | .hbm, ⟨47, _⟩ => ⟨S16x62x62x256, .f32⟩
  | .hbm, ⟨48, _⟩ => ⟨S16x62x62x256, .f32⟩
  | .hbm, ⟨49, _⟩ => ⟨S16x256x62x62, .f32⟩
  | _, _ => ⟨S16x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]

class Facts₀ : Prop where
  reducesTo_S5x256x256_S5x256_d2 : S5x256x256.ReducesTo [2] S5x256
  h_S_ : 0 < S_.numel
  bcast_S5x256_S5x256x1_0_1 : S5x256.BroadcastsInDim S5x256x1 (![0, 1] : Fin 2 → Fin S5x256x1.rank)
  bcast_S_S5x256x1 : S_.BroadcastsInDim S5x256x1 (![] : Fin 0 → Fin S5x256x1.rank)
  bcast_S5x256x1_S5x256x256_0_1_2 : S5x256x1.BroadcastsInDim S5x256x256 (![0, 1, 2] : Fin 3 → Fin S5x256x256.rank)
  transposes_S16x256x64x64_S16x64x64x256_0_2_3_1 : S16x256x64x64.Transposes [0, 2, 3, 1] S16x64x64x256
  slices_S16x64x64x256_S16x62x62x256_0_0_0_0 : S16x64x64x256.Slices ![0, 0, 0, 0] S16x62x62x256
  slices_S5x256x256_S1x256x256_0_0_0 : S5x256x256.Slices ![0, 0, 0] S1x256x256
  shapeCasts_S1x256x256_S256x256 : S1x256x256.ShapeCasts S256x256
  slices_S16x64x64x256_S16x62x62x256_0_0_2_0 : S16x64x64x256.Slices ![0, 0, 2, 0] S16x62x62x256
  slices_S5x256x256_S1x256x256_1_0_0 : S5x256x256.Slices ![1, 0, 0] S1x256x256
  slices_S16x64x64x256_S16x62x62x256_0_1_1_0 : S16x64x64x256.Slices ![0, 1, 1, 0] S16x62x62x256
  slices_S5x256x256_S1x256x256_2_0_0 : S5x256x256.Slices ![2, 0, 0] S1x256x256
  slices_S16x64x64x256_S16x62x62x256_0_2_0_0 : S16x64x64x256.Slices ![0, 2, 0, 0] S16x62x62x256
  slices_S5x256x256_S1x256x256_3_0_0 : S5x256x256.Slices ![3, 0, 0] S1x256x256
  slices_S16x64x64x256_S16x62x62x256_0_2_2_0 : S16x64x64x256.Slices ![0, 2, 2, 0] S16x62x62x256
  slices_S5x256x256_S1x256x256_4_0_0 : S5x256x256.Slices ![4, 0, 0] S1x256x256
  bcast_S256_S1x1x1x256_3 : S256.BroadcastsInDim S1x1x1x256 (![3] : Fin 1 → Fin S1x1x1x256.rank)
  bcast_S1x1x1x256_S16x62x62x256_0_1_2_3 : S1x1x1x256.BroadcastsInDim S16x62x62x256 (![0, 1, 2, 3] : Fin 4 → Fin S16x62x62x256.rank)
  bcast_S_S16x62x62x256 : S_.BroadcastsInDim S16x62x62x256 (![] : Fin 0 → Fin S16x62x62x256.rank)
  transposes_S16x62x62x256_S16x256x62x62_0_3_1_2 : S16x62x62x256.Transposes [0, 3, 1, 2] S16x256x62x62
  dot_S16x62x62x256_S256x256_S16x62x62x256_3_1_012_0_n_n_wf : DotDims.WF S16x62x62x256 S256x256 S16x62x62x256 [3] [1] [0, 1, 2] [0] [] []

variable [Facts₀]

def dot_S16x62x62x256_S256x256_S16x62x62x256_3_1_012_0_n_n : DotDims S16x62x62x256 S256x256 S16x62x62x256 where
  lhsContracting := [3]
  rhsContracting := [1]
  lhsNonContracting := [0, 1, 2]
  rhsNonContracting := [0]
  lhsBatch := []
  rhsBatch := []
  wf := dot_S16x62x62x256_S256x256_S16x62x62x256_3_1_012_0_n_n_wf

class Facts : Prop extends Facts₀ where

variable [Facts]
-- ==== Proof.ConvSpec.lean ====
/-
  The function both programs compute, over the extended reals.

  A sparse 3x3 convolution with five taps at offsets (0,0), (0,2), (1,1), (2,0), (2,2), channels last: for an image
  `x[b, H, W, i]` (64 x 64 positions, 256 input channels) and per-tap weights `wt[k, o, i]`, the output at batch `b`,
  position `(h, w)` (62 x 62 positions) and output channel `o` is

      ( Σ_k Σ_i x[b, h + dh_k, w + dw_k, i] · wt[k, o, i]  +  bias[o] ) · c

  with `c` the single-precision constant nearest 1/sqrt(1281). The taps are added left to right. A tap only looks at
  one batch entry, so it is stated over accessors `xa H W i` and `wa o i`: the same definition then serves a block of
  the image (one batch entry) and the whole array.
-/
import Idealize.ShloMosaic.PureOps.Ideal
import Idealize.ShloMosaic.Lib.ValueIdx

noncomputable section

open scoped BigOperators

namespace Cert.ConvSpec

open Idealize.ShloMosaic Idealize.ShloMosaic.ValueIdx

/-- The image with channels last, the per-tap weights, and the output with channels last. -/
abbrev XS : Shape := ⟨4, ![16, 64, 64, 256]⟩
abbrev WS : Shape := ⟨3, ![5, 256, 256]⟩
abbrev OS : Shape := ⟨4, ![16, 62, 62, 256]⟩

/-- An output position moved by a tap offset of at most 2 stays inside the 64 input positions. -/
theorem shift_lt (p : Fin 62) {d : ℕ} (hd : d ≤ 2) : p.val + d < 64 := by
  have := p.isLt; omega

/-- One tap: the contraction over the 256 input channels of the image at the shifted position with one tap's weights. -/
def tap (xa : Fin 64 → Fin 64 → Fin 256 → EReal) (wa : Fin 256 → Fin 256 → EReal) (dh dw : ℕ) (hdh : dh ≤ 2) (hdw : dw ≤ 2)
    (h w : Fin 62) (o : Fin 256) : EReal :=
  ∑ i : Fin 256, xa ⟨h.val + dh, shift_lt h hdh⟩ ⟨w.val + dw, shift_lt w hdw⟩ i * wa o i

/-- The five taps, added left to right. -/
def taps (xa : Fin 64 → Fin 64 → Fin 256 → EReal) (wa : Fin 5 → Fin 256 → Fin 256 → EReal) (h w : Fin 62) (o : Fin 256) : EReal :=
  tap xa (wa 0) 0 0 (by decide) (by decide) h w o + tap xa (wa 1) 0 2 (by decide) (by decide) h w o
    + tap xa (wa 2) 1 1 (by decide) (by decide) h w o + tap xa (wa 3) 2 0 (by decide) (by decide) h w o
    + tap xa (wa 4) 2 2 (by decide) (by decide) h w o

/-- The scale, 1/sqrt(1281) rounded to single precision: the same word in both programs, never evaluated. -/
def scale : EReal := Ideal.ofBits .f32 0x3CE4E24C#32

/-- One output element: the taps, plus the channel's bias, times the scale. -/
def convAt (xa : Fin 64 → Fin 64 → Fin 256 → EReal) (wa : Fin 5 → Fin 256 → Fin 256 → EReal) (bias : Fin 256 → EReal)
    (h w : Fin 62) (o : Fin 256) : EReal :=
  (taps xa wa h w o + bias o) * scale

/-- The whole output array (channels last) as one function of the image (channels last), the weights and the bias. -/
def conv (x : XS.Idx → EReal) (wt : WS.Idx → EReal) (bias : Fin 256 → EReal) : OS.Idx → EReal := fun j =>
  convAt (fun H W i => x (ix4 (j 0) H W i)) (fun k o i => wt (ix3 k o i)) bias (j 1) (j 2) (j 3)

/-- `conv` at an index, unfolded once. -/
theorem conv_apply (x : XS.Idx → EReal) (wt : WS.Idx → EReal) (bias : Fin 256 → EReal) (j : OS.Idx) :
    conv x wt bias j = convAt (fun H W i => x (ix4 (j 0) H W i)) (fun k o i => wt (ix3 k o i)) bias (j 1) (j 2) (j 3) := rfl

/-- A sum of taps begun from zero is the sum of the taps: `0 + a = a` on the extended reals. -/
theorem zero_add_taps (xa : Fin 64 → Fin 64 → Fin 256 → EReal) (wa : Fin 5 → Fin 256 → Fin 256 → EReal) (h w : Fin 62) (o : Fin 256) :
    0 + tap xa (wa 0) 0 0 (by decide) (by decide) h w o + tap xa (wa 1) 0 2 (by decide) (by decide) h w o
      + tap xa (wa 2) 1 1 (by decide) (by decide) h w o + tap xa (wa 3) 2 0 (by decide) (by decide) h w o
      + tap xa (wa 4) 2 2 (by decide) (by decide) h w o = taps xa wa h w o := by
  unfold taps; rw [zero_add]

end Cert.ConvSpec

end
-- ==== Proof.KernelBody.lean ====
/-
  The kernel body's stored value, read at one element.

  The body flattens its image block [1, 64, 64, 256] to a matrix of 4096 rows (row H·64 + W is position (H, W)) and 256
  columns, multiplies it by each tap's transposed weight matrix into a zero accumulator, views each product as
  [64, 64, 256] again, crops it at the tap's offset to [62, 62, 256], adds the five crops to a zero array, adds the bias
  row and multiplies by the scale. At the ideal values a format change is the identity and a product into a zero
  accumulator is the plain sum over the contracted axis, so at (h, w, o) the stored value is `ConvSpec.convAt` of the
  block: cropping after the product reads the product at the shifted position.
-/
import proofs.«162459_j16673063043688_1_alg».proof.Proof.Gen.KernelIdeal.Frame
import proofs.«162459_j16673063043688_1_alg».proof.Proof.ConvSpec
import Idealize.ShloMosaic.Lib.ValueIdx
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.ConvSpec

/-! ## The matrix product's operand indices

For a [4096, 256] × [256, 256] product contracting the left operand's columns with the right operand's rows, the left
operand is read at (output row, contraction position) and the right at (contraction position, output column). -/

theorem lhs_row (j : S4096x256.Idx) (q : dot_S4096x256_S256x256_S4096x256_1_0_0_1_n_n.contr.Idx) :
    (dot_S4096x256_S256x256_S4096x256_1_0_0_1_n_n.lhsIdx j q 0).val = (j 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_col (j : S4096x256.Idx) (q : dot_S4096x256_S256x256_S4096x256_1_0_0_1_n_n.contr.Idx) :
    (dot_S4096x256_S256x256_S4096x256_1_0_0_1_n_n.lhsIdx j q 1).val = (q ⟨0, by decide⟩).val :=
  dot_S4096x256_S256x256_S4096x256_1_0_0_1_n_n.lhsIdx_val_of_single rfl j q
theorem rhs_row (j : S4096x256.Idx) (q : dot_S4096x256_S256x256_S4096x256_1_0_0_1_n_n.contr.Idx) :
    (dot_S4096x256_S256x256_S4096x256_1_0_0_1_n_n.rhsIdx j q 0).val = (q ⟨0, by decide⟩).val :=
  dot_S4096x256_S256x256_S4096x256_1_0_0_1_n_n.rhsIdx_val_of_single rfl j q
theorem rhs_col (j : S4096x256.Idx) (q : dot_S4096x256_S256x256_S4096x256_1_0_0_1_n_n.contr.Idx) :
    (dot_S4096x256_S256x256_S4096x256_1_0_0_1_n_n.rhsIdx j q 1).val = (j 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The product into the zero accumulator at row `p`, column `o`: the sum over the 256 contraction positions. -/
theorem matmul_at (l : FVec Ideal S4096x256 .bf16) (r : FVec Ideal S256x256 .bf16) (p : Fin 4096) (o : Fin 256) :
    matmul dot_S4096x256_S256x256_S4096x256_1_0_0_1_n_n none l r (constant S4096x256 .f32 0x00000000#32) (ix2 p o)
      = ∑ i : Fin 256, l (ix2 p i) * r (ix2 i o) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 p o) ((ValueIdx.contrEquiv1 dot_S4096x256_S256x256_S4096x256_1_0_0_1_n_n 256 rfl rfl).symm k) = ix2 p k := funext fun a => Fin.ext (by
    match a with
    | ⟨0, _⟩ => exact lhs_row _ _
    | ⟨1, _⟩ => exact (lhs_col _ _).trans hk)
  have er : dot_S4096x256_S256x256_S4096x256_1_0_0_1_n_n.rhsIdx (ix2 p o) ((ValueIdx.contrEquiv1 dot_S4096x256_S256x256_S4096x256_1_0_0_1_n_n 256 rfl rfl).symm k) = ix2 k o := funext fun a => Fin.ext (by
    match a with
    | ⟨0, _⟩ => exact (rhs_row _ _).trans hk
    | ⟨1, _⟩ => exact rhs_col _ _)
  rw [el, er]

/-! ## The two operands -/

/-- Row H·64 + W of the flattened block is position (H, W) of the block. -/
theorem flat_lt (H W : Fin 64) : H.val * 64 + W.val < 4096 := by
  have := H.isLt; have := W.isLt; omega

/-- The left operand: the image block flattened to 4096 rows, read at row H·64 + W and channel `i`. -/
theorem flat_at (x0 : Vec Ideal S1x64x64x256 .f32) (H W : Fin 64) (i : Fin 256) :
    k0_pay2 x0 (ix2 ⟨H.val * 64 + W.val, flat_lt H W⟩ i) = x0 (ix4 0 H W i) := by
  unfold k0_pay2
  refine (truncf_apply (ψ := .bf16) _ bitsLt_bf16_f32 _).trans ?_
  refine (shapeCast_apply _ _ (ix2 ⟨H.val * 64 + W.val, flat_lt H W⟩ i) (ix3 H W i) ?_).trans ?_
  · rw [Shape.rowMajor_val_three, Shape.rowMajor_val_two]
    show (H.val * 64 + W.val) * 256 + i.val = (H.val * 64 + W.val) * 256 + i.val
    rfl
  · refine shapeCast_apply _ _ (ix3 H W i) (ix4 0 H W i) ?_
    rw [Shape.rowMajor_val_four, Shape.rowMajor_val_three]
    show ((0 * 64 + H.val) * 64 + W.val) * 256 + i.val = (H.val * 64 + W.val) * 256 + i.val
    omega

/-- The right operand: one tap's [1, 256, 256] weight slice, unit axis dropped, transposed: at (i, o) it is the weight
    of output channel `o`, input channel `i`. -/
theorem wT_at (v : Vec Ideal S1x256x256 .f32) (hc : S1x256x256.ShapeCasts S256x256) (hb : FTy.bits .bf16 < FTy.bits .f32)
    (ht : S256x256.Transposes [1, 0] S256x256) (i o : Fin 256) :
    (transpose S256x256 [1, 0] (truncf (F := Ideal) .bf16 (shapeCast S256x256 v hc) hb) ht (ix2 i o) : EReal) = v (ix3 0 o i) := by
  refine (transpose_apply [1, 0] _ ht (ix2 i o) (ix2 o i) (fun b => match b with
    | ⟨0, _⟩ => rfl
    | ⟨1, _⟩ => rfl)).trans ?_
  refine (truncf_apply (ψ := .bf16) _ hb _).trans ?_
  refine shapeCast_apply v hc (ix2 o i) (ix3 0 o i) ?_
  rw [Shape.rowMajor_val_three, Shape.rowMajor_val_two]
  show (0 * 256 + o.val) * 256 + i.val = o.val * 256 + i.val
  omega

/-! ## One tap -/

/-- One tap of the body at (h, w, o): the product of the flattened block with the tap's transposed weights, viewed
    [64, 64, 256] and cropped at (dh, dw), is the tap of the block at the shifted position. -/
theorem tap_at (x0 : Vec Ideal S1x64x64x256 .f32) (v : Vec Ideal S1x256x256 .f32) (dh dw : ℕ) (hdh : dh ≤ 2) (hdw : dw ≤ 2)
    (hc : S1x256x256.ShapeCasts S256x256) (hb : FTy.bits .bf16 < FTy.bits .f32) (ht : S256x256.Transposes [1, 0] S256x256)
    (hv : S4096x256.ShapeCasts S64x64x256) (hs : S64x64x256.Slices ![dh, dw, 0] S62x62x256)
    (wa : Fin 256 → Fin 256 → EReal) (hwa : ∀ o i, v (ix3 0 o i) = wa o i) (h w : Fin 62) (o : Fin 256) :
    extractStridedSlice S62x62x256 ![dh, dw, 0]
        (shapeCast S64x64x256 (matmul dot_S4096x256_S256x256_S4096x256_1_0_0_1_n_n none (k0_pay2 x0)
          (transpose S256x256 [1, 0] (truncf .bf16 (shapeCast S256x256 v hc) hb) ht) (constant S4096x256 .f32 0x00000000#32)) hv) hs (ix3 h w o)
      = tap (fun H W i => x0 (ix4 0 H W i)) wa dh dw hdh hdw h w o := by
  refine (extractStridedSlice_apply ![dh, dw, 0] _ hs (ix3 h w o)
    (ix3 ⟨h.val + dh, shift_lt h hdh⟩ ⟨w.val + dw, shift_lt w hdw⟩ o) (fun a => match a with
      | ⟨0, _⟩ => by show h.val + dh = dh + h.val; omega
      | ⟨1, _⟩ => by show w.val + dw = dw + w.val; omega
      | ⟨2, _⟩ => by show o.val = 0 + o.val; omega)).trans ?_
  refine (shapeCast_apply _ hv (ix3 ⟨h.val + dh, shift_lt h hdh⟩ ⟨w.val + dw, shift_lt w hdw⟩ o)
    (ix2 ⟨(h.val + dh) * 64 + (w.val + dw), flat_lt ⟨h.val + dh, shift_lt h hdh⟩ ⟨w.val + dw, shift_lt w hdw⟩⟩ o) ?_).trans ?_
  · rw [Shape.rowMajor_val_three, Shape.rowMajor_val_two]
    show ((h.val + dh) * 64 + (w.val + dw)) * 256 + o.val = ((h.val + dh) * 64 + (w.val + dw)) * 256 + o.val
    rfl
  refine (matmul_at _ _ _ o).trans ?_
  unfold tap
  refine Finset.sum_congr rfl fun i _ => ?_
  exact congrArg₂ (· * ·) (flat_at x0 ⟨h.val + dh, shift_lt h hdh⟩ ⟨w.val + dw, shift_lt w hdw⟩ i) ((wT_at v hc hb ht i o).trans (hwa o i))

/-! ## The weight slices -/

/-- Tap `k`'s slice of the weight block: local index (0, o, i) of the [1, 256, 256] rectangle at offset (k, 0, 0) is
    index (k, o, i) of the block. -/
theorem slice_idx (k : ℕ) (hk : k < 5) (inb : ∀ a, (![k, 0, 0] : Fin 3 → ℕ) a + S1x256x256.size a ≤ S5x256x256.size a) (o i : Fin 256) :
    (Rect.unit (s := S5x256x256) ![k, 0, 0] S1x256x256.size inb).idx (ix3 0 o i) = ix3 ⟨k, hk⟩ o i := by
  funext a; apply Fin.ext
  match a with
  | ⟨0, _⟩ => show k + 1 * 0 = k; omega
  | ⟨1, _⟩ => show 0 + 1 * o.val = o.val; omega
  | ⟨2, _⟩ => show 0 + 1 * i.val = i.val; omega

/-! ## The stored value -/

theorem hz4 : (![0, 0, 0, 0] : Fin 4 → ℕ) = fun _ => 0 := funext fun a => by fin_cases a <;> rfl
theorem hz2 : (![0, 0] : Fin 2 → ℕ) = fun _ => 0 := funext fun a => by fin_cases a <;> rfl

/-- The first four taps, accumulated from the zero array, at (h, w, o). -/
theorem acc4_at (x0 : Vec Ideal S1x64x64x256 .f32) (x1 : Vec Ideal S5x256x256 .f32) (h w : Fin 62) (o : Fin 256) :
    k0_pay3 x0 (View.ld x1 r0_1) (View.ld x1 r0_2) (View.ld x1 r0_3) (View.ld x1 r0_4) (ix3 h w o)
      = 0 + tap (fun H W i => x0 (ix4 0 H W i)) (fun o i => x1 (ix3 0 o i)) 0 0 (by decide) (by decide) h w o
          + tap (fun H W i => x0 (ix4 0 H W i)) (fun o i => x1 (ix3 1 o i)) 0 2 (by decide) (by decide) h w o
          + tap (fun H W i => x0 (ix4 0 H W i)) (fun o i => x1 (ix3 2 o i)) 1 1 (by decide) (by decide) h w o
          + tap (fun H W i => x0 (ix4 0 H W i)) (fun o i => x1 (ix3 3 o i)) 2 0 (by decide) (by decide) h w o := by
  unfold k0_pay3
  refine (addf_apply _ _ _).trans ?_
  refine congrArg₂ (· + ·) ?_ (tap_at x0 (View.ld x1 r0_4) 2 0 (by decide) (by decide) _ _ _ _ _ _
    (fun o i => congrArg x1 (slice_idx 3 (by decide) _ o i)) h w o)
  refine (addf_apply _ _ _).trans ?_
  refine congrArg₂ (· + ·) ?_ (tap_at x0 (View.ld x1 r0_3) 1 1 (by decide) (by decide) _ _ _ _ _ _
    (fun o i => congrArg x1 (slice_idx 2 (by decide) _ o i)) h w o)
  refine (addf_apply _ _ _).trans ?_
  refine congrArg₂ (· + ·) ?_ (tap_at x0 (View.ld x1 r0_2) 0 2 (by decide) (by decide) _ _ _ _ _ _
    (fun o i => congrArg x1 (slice_idx 1 (by decide) _ o i)) h w o)
  refine (addf_apply _ _ _).trans ?_
  refine congrArg₂ (· + ·) ?_ (tap_at x0 (View.ld x1 r0_1) 0 0 (by decide) (by decide) _ _ _ _ _ _
    (fun o i => congrArg x1 (slice_idx 0 (by decide) _ o i)) h w o)
  exact Ideal.ofBits_zero_f32

/-- The bias row [1, 256], viewed [1, 1, 256] and spread over the 62 × 62 positions, at (h, w, o) is the row's entry `o`. -/
theorem bias_at (x2 : Vec Ideal S1x256 .f32) (h1 : S1x256.ShapeCasts S1x256) (h2 : S1x256.ShapeCasts S1x1x256)
    (h3 : S1x1x256.Broadcasts S62x62x256) (h w : Fin 62) (o : Fin 256) :
    broadcastTo S62x62x256 (shapeCast S1x1x256 (shapeCast S1x256 x2 h1) h2) h3 (ix3 h w o) = x2 (ix2 0 o) := by
  refine (broadcastTo_apply _ h3 (ix3 h w o) (ix3 0 0 o) (fun a => match a with
    | ⟨0, _⟩ => rfl
    | ⟨1, _⟩ => rfl
    | ⟨2, _⟩ => rfl)).trans ?_
  refine (shapeCast_apply _ h2 (ix3 0 0 o) (ix2 0 o) ?_).trans ?_
  · rw [Shape.rowMajor_val_three, Shape.rowMajor_val_two]
    show 0 * 256 + o.val = (0 * 1 + 0) * 256 + o.val
    omega
  · exact congrFun (shapeCast_self x2 h1) (ix2 0 o)

/-- WHAT THE BODY STORES at (0, h, w, o) of its output block: `convAt` of its image block, weight block and bias row. -/
theorem body_at (x0 : Vec Ideal S1x64x64x256 .f32) (x1 : Vec Ideal S5x256x256 .f32) (x2 : Vec Ideal S1x256 .f32)
    (h w : Fin 62) (o : Fin 256) :
    out0_3 x0 x1 x2 (ix4 0 h w o)
      = convAt (fun H W i => x0 (ix4 0 H W i)) (fun k o i => x1 (ix3 k o i)) (fun o => x2 (ix2 0 o)) h w o := by
  unfold out0_3
  rw [View.canon_unit_zero hz4]
  simp only [View.ld_unit_zero (S := S1x64x64x256) hz4, View.ld_unit_zero (S := S1x256) hz2]
  unfold k0_pay1
  refine (shapeCast_apply _ _ (ix4 0 h w o) (ix3 h w o) ?_).trans ?_
  · rw [Shape.rowMajor_val_three, Shape.rowMajor_val_four]
    show (h.val * 62 + w.val) * 256 + o.val = ((0 * 62 + h.val) * 62 + w.val) * 256 + o.val
    omega
  refine (mulf_apply _ _ _).trans ?_
  unfold convAt
  refine congrArg₂ (· * ·) ?_ rfl
  refine (addf_apply _ _ _).trans ?_
  refine congrArg₂ (· + ·) ?_ (bias_at x2 _ _ _ h w o)
  refine (addf_apply _ _ _).trans ?_
  refine (congrArg₂ (· + ·) (acc4_at x0 x1 h w o) (tap_at x0 (View.ld x1 r0_5) 2 2 (by decide) (by decide) _ _ _ _ _ _
    (fun o i => congrArg x1 (slice_idx 4 (by decide) _ o i)) h w o)).trans ?_
  exact zero_add_taps (fun H W i => x0 (ix4 0 H W i)) (fun k o i => x1 (ix3 k o i)) h w o

/-- The same at any index `j` of the output block (its first coordinate is 0: the block has one batch entry). -/
theorem block_eq (x0 : Vec Ideal S1x64x64x256 .f32) (x1 : Vec Ideal S5x256x256 .f32) (x2 : Vec Ideal S1x256 .f32)
    (j : S1x62x62x256.Idx) :
    out0_3 x0 x1 x2 j
      = convAt (fun H W i => x0 (ix4 0 H W i)) (fun k o i => x1 (ix3 k o i)) (fun o => x2 (ix2 0 o)) (j 1) (j 2) (j 3) := by
  have e : j = ix4 0 (j 1) (j 2) (j 3) := by
    funext a
    match a with
    | ⟨0, _⟩ => apply Fin.ext; have h0 : (j 0).val < 1 := (j 0).isLt; show (j 0).val = 0; omega
    | ⟨1, _⟩ => rfl
    | ⟨2, _⟩ => rfl
    | ⟨3, _⟩ => rfl
  exact (congrArg (out0_3 x0 x1 x2) e).trans (body_at x0 x1 x2 (j 1) (j 2) (j 3))

end Cert.KernelIdeal.Body

end
-- ==== Proof.KernelValue.lean ====
/-
  The kernel's result array.

  The grid has one point per batch entry. At point `t` the image window holds batch entry `t` of the channels-last
  image, the weight and bias windows hold their whole arrays, and the output window's block is batch entry `t` of the
  output. What the body leaves in the output block is `ConvSpec.convAt` of those blocks (`Body.block_eq`), which is
  block `t` of `ConvSpec.conv` of the whole arrays; the sixteen blocks cover the output array, so after the region it
  holds `conv` of the arrays the region found. The one host operation after the region transposes it to channels first.
-/
import proofs.«162459_j16673063043688_1_alg».proof.Proof.Gen.KernelIdeal.Frame
import proofs.«162459_j16673063043688_1_alg».proof.Proof.KernelBody
import Idealize.ShloMosaic.Lib.Pipeline.Value
import Idealize.ShloMosaic.Lib.StableHlo.Run

noncomputable section

namespace Cert.KernelIdeal.ArrayValue

open Idealize.ShloMosaic Idealize.ShloMosaic.TcCoe Idealize.ShloMosaic.ValueIdx Idealize.SL.Sem
open Cert.KernelIdeal Cert.KernelIdeal.Gen Cert.KernelIdeal.Body Cert.ConvSpec
open Idealize.ShloMosaic.Pipeline (Dat)

variable (m : (ℓ : Loc nD τ sig) → Buf (Elt Ideal) ℓ) (ρ : Dev nD → PrngReg)

/-- What the output array ends holding: `conv` of the channels-last image, the standardized weights and the bias row,
    as the region finds them. -/
abbrev G (c : Dev nD) : S16x62x62x256.Idx → EReal :=
  conv (V m c main_v9) (V m c main_v8) (fun o => V m c main_v10 (ix2 0 o))

/-- The printed index maps, decided over the sixteen points: the image and output windows are at batch entry `t`, every
    other block index is zero. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- WHAT POINT `t` WRITES BACK is block `t` of `G`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  obtain ⟨a0, a1, a2, a3, b0, b1, b2, c0, c1, d0, d1, d2, d3⟩ := idx_facts t
  funext j
  refine (block_eq (iblk m c 0 t) (iblk m c 1 t) (iblk m c 2 t) j).trans ?_
  refine Eq.trans ?_ (conv_apply (V m c main_v9) (V m c main_v8) (fun o => V m c main_v10 (ix2 0 o)) (((cfg0.win 3).blk t).view.emb j)).symm
  have hj0 : (j 0).val < 1 := (j 0).isLt
  have hf : (fun (H W : Fin 64) (i : Fin 256) => iblk m c 0 t (ix4 0 H W i))
      = fun H W i => V m c main_v9 (ix4 ((((cfg0.win 3).blk t).view.emb j) 0) H W i) := by
    funext H W i
    show V m c main_v9 (((cfg0.win 0).blk t).view.emb (ix4 0 H W i)) = _
    refine congrArg (V m c main_v9) (funext fun a => Fin.ext ?_)
    match a with
    | ⟨0, _⟩ => show win0_0.index t (0 : Fin 4) * 1 + 1 * 0 = win0_3.index t (0 : Fin 4) * 1 + 1 * (j 0).val; omega
    | ⟨1, _⟩ => show win0_0.index t (1 : Fin 4) * 64 + 1 * H.val = H.val; omega
    | ⟨2, _⟩ => show win0_0.index t (2 : Fin 4) * 64 + 1 * W.val = W.val; omega
    | ⟨3, _⟩ => show win0_0.index t (3 : Fin 4) * 256 + 1 * i.val = i.val; omega
  have hg : (fun (k : Fin 5) (o i : Fin 256) => iblk m c 1 t (ix3 k o i)) = fun k o i => V m c main_v8 (ix3 k o i) := by
    funext k o i
    show V m c main_v8 (((cfg0.win 1).blk t).view.emb (ix3 k o i)) = _
    refine congrArg (V m c main_v8) (funext fun a => Fin.ext ?_)
    match a with
    | ⟨0, _⟩ => show win0_1.index t (0 : Fin 3) * 5 + 1 * k.val = k.val; omega
    | ⟨1, _⟩ => show win0_1.index t (1 : Fin 3) * 256 + 1 * o.val = o.val; omega
    | ⟨2, _⟩ => show win0_1.index t (2 : Fin 3) * 256 + 1 * i.val = i.val; omega
  have hb : (fun (o : Fin 256) => iblk m c 2 t (ix2 0 o)) = fun o => V m c main_v10 (ix2 0 o) := by
    funext o
    show V m c main_v10 (((cfg0.win 2).blk t).view.emb (ix2 0 o)) = _
    refine congrArg (V m c main_v10) (funext fun a => Fin.ext ?_)
    match a with
    | ⟨0, _⟩ => show win0_2.index t (0 : Fin 2) * 1 + 1 * 0 = 0; omega
    | ⟨1, _⟩ => show win0_2.index t (1 : Fin 2) * 256 + 1 * o.val = o.val; omega
  have e1 : (((cfg0.win 3).blk t).view.emb j) 1 = j 1 :=
    Fin.ext (by show win0_3.index t (1 : Fin 4) * 62 + 1 * (j 1).val = (j 1).val; omega)
  have e2 : (((cfg0.win 3).blk t).view.emb j) 2 = j 2 :=
    Fin.ext (by show win0_3.index t (2 : Fin 4) * 62 + 1 * (j 2).val = (j 2).val; omega)
  have e3 : (((cfg0.win 3).blk t).view.emb j) 3 = j 3 :=
    Fin.ext (by show win0_3.index t (3 : Fin 4) * 256 + 1 * (j 3).val = (j 3).val; omega)
  rw [hf, hg, hb, e1, e2, e3]

/-- An index of the output array is in point `t`'s block iff each coordinate is in the block's range on its axis. -/
theorem mem_blk (t : Fin cfg0.N) (i : S16x62x62x256.Idx) :
    i ∈ ((cfg0.win 3).blk t).view.set ↔ ∀ a : Fin 4, win0_3.index t a * S1x62x62x256.size a ≤ (i a).val ∧ (i a).val < win0_3.index t a * S1x62x62x256.size a + S1x62x62x256.size a := by
  show i ∈ ((View.whole main_v11).slice (win0_3.rect t)).set ↔ _
  rw [View.set_slice_whole, Rect.mem_set_unit]
  exact Iff.rfl

/-- Every index of the output array is in the block of the point of its batch entry. -/
theorem cover (i : S16x62x62x256.Idx) : ∃ t : Fin cfg0.N, (cfg0.win 3).flush t = true ∧ i ∈ ((cfg0.win 3).blk t).view.set := by
  have hi0 : (i 0).val < 16 := (i 0).isLt
  have hi1 : (i 1).val < 62 := (i 1).isLt
  have hi2 : (i 2).val < 62 := (i 2).isLt
  have hi3 : (i 3).val < 256 := (i 3).isLt
  have hN : (i 0).val < cfg0.N := by rw [show cfg0.N = 16 from N_0]; exact hi0
  refine ⟨⟨(i 0).val, hN⟩, flush0_3 _, ?_⟩
  rw [mem_blk]
  obtain ⟨-, -, -, -, -, -, -, -, -, d0, d1, d2, d3⟩ := idx_facts ⟨(i 0).val, hN⟩
  intro a
  match a with
  | ⟨0, _⟩ => show win0_3.index ⟨(i 0).val, hN⟩ (0 : Fin 4) * 1 ≤ (i 0).val ∧ (i 0).val < win0_3.index ⟨(i 0).val, hN⟩ (0 : Fin 4) * 1 + 1; rw [d0]; show (i 0).val * 1 ≤ (i 0).val ∧ (i 0).val < (i 0).val * 1 + 1; omega
  | ⟨1, _⟩ => show win0_3.index ⟨(i 0).val, hN⟩ (1 : Fin 4) * 62 ≤ (i 1).val ∧ (i 1).val < win0_3.index ⟨(i 0).val, hN⟩ (1 : Fin 4) * 62 + 62; omega
  | ⟨2, _⟩ => show win0_3.index ⟨(i 0).val, hN⟩ (2 : Fin 4) * 62 ≤ (i 2).val ∧ (i 2).val < win0_3.index ⟨(i 0).val, hN⟩ (2 : Fin 4) * 62 + 62; omega
  | ⟨3, _⟩ => show win0_3.index ⟨(i 0).val, hN⟩ (3 : Fin 4) * 256 ≤ (i 3).val ∧ (i 3).val < win0_3.index ⟨(i 0).val, hN⟩ (3 : Fin 4) * 256 + 256; omega

/-- THE OUTPUT ARRAY after the region is `G`. -/
theorem final (c : Dev nD) : (dats m 0 c).arrAt 3 cfg0.N = G m c :=
  (dats m 0 c).arrAt_eq_of_cover 3 (G m c) (fun t _ => flushed_eq m c t) cover

/-- The result buffer after the host's transpose. -/
theorem tail_eq (c : Dev nD) :
    Pipeline.afterTail₀ cfgs (dats m) 0 (V0 m) [hostOps1] c main_v12
      = transpose S16x256x62x62 [0, 3, 1, 2] (G m c) transposes_S16x62x62x256_S16x256x62x62_0_3_1_2 := by
  unfold Pipeline.afterTail₀
  show StableHlo.after hostOps1 _ (Proc.devRef .tc main_v12) = _
  after_results
  exact congrArg (fun x => transpose S16x256x62x62 [0, 3, 1, 2] x transposes_S16x62x62x256_S16x256x62x62_0_3_1_2)
    ((Pipeline.withArrays_arr spec0 launch0.win.arr_inj c (V0 m c) (fun w => (dats m 0 c).arrAt w (cfgs 0).N) 3).trans (final m c))

/-- THE KERNEL'S RUN, read: every weakly fair execution terminates with the result at the transpose of `G` and the
    arguments unchanged (the generated frame run, its post read at the result buffer and at the arguments). -/
theorem run : θ_run defs (onTc (τ := τ) (main (F := Ideal))) ⟨m, fun _ => 0, ρ⟩ fun r => ∀ c : Dev nD,
      r.2.mem ((c.tc : Thread nD τ).loc main_v12)
          = transpose S16x256x62x62 [0, 3, 1, 2] (G m c) transposes_S16x62x62x256_S16x256x62x62_0_3_1_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v12 (Pipeline.mem_restRefs_of main_v12 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.ArrayValue

end
-- ==== Proof.RefSide.lean ====
/-
  The reference, read at one element.

  The reference slices the channels-last image at each tap's offset to [16, 62, 62, 256], takes the tap's [256, 256]
  weight matrix out of the weight array, contracts the image's channel axis with the weight's input-channel axis, adds
  the five products left to right, adds the bias and multiplies by the scale. Slicing before the product reads the image
  at the shifted position, so each product is one tap of `ConvSpec`, and the stage before the final transpose is
  `ConvSpec.conv` of the transposed image, the standardized weights and the bias.
-/
import proofs.«162459_j16673063043688_1_alg».proof.Proof.Gen.ReferenceIdeal.Read
import proofs.«162459_j16673063043688_1_alg».proof.Proof.ConvSpec
import Idealize.ShloMosaic.Lib.ValueIdx
import Idealize.ShloMosaic.Lib.Pipeline.Value
import Idealize.ShloMosaic.PureOps.Ideal.Laws

noncomputable section

open scoped BigOperators

namespace Cert.ReferenceIdeal.RefSide

open Idealize.ShloMosaic Idealize.ShloMosaic.ValueIdx Cert.ReferenceIdeal Cert.ReferenceIdeal.Gen Cert.ReferenceIdeal.Read Cert.ConvSpec

/-- One product of the reference at index `j`: the image sliced at offset (0, dh, dw, 0), contracted over its channels
    with tap `k`'s weight matrix (the weight array sliced at (k, 0, 0), unit axis dropped), is the tap at `j`'s position. -/
theorem dot_stage (X : Vec Ideal S16x64x64x256 .f32) (WN : Vec Ideal S5x256x256 .f32) (k dh dw : ℕ) (hk : k < 5)
    (hdh : dh ≤ 2) (hdw : dw ≤ 2) (hsx : S16x64x64x256.Slices ![0, dh, dw, 0] S16x62x62x256)
    (hsw : S5x256x256.Slices ![k, 0, 0] S1x256x256) (hc : S1x256x256.ShapeCasts S256x256) (j : S16x62x62x256.Idx) :
    Host.dotGeneral (F := Ideal) (φ₁ := .f32) (φ₂ := .f32) dot_S16x62x62x256_S256x256_S16x62x62x256_3_1_012_0_n_n none (extractStridedSlice S16x62x62x256 ![0, dh, dw, 0] X hsx)
        (shapeCast S256x256 (extractStridedSlice S1x256x256 ![k, 0, 0] WN hsw) hc) j
      = tap (fun H W i => X (ix4 (j 0) H W i)) (fun o i => WN (ix3 ⟨k, hk⟩ o i)) dh dw hdh hdw (j 1) (j 2) (j 3) := by
  simp only [Host.dotGeneral]
  rw [Ideal.dotGeneral_apply, ← Equiv.sum_comp (ValueIdx.contrEquiv1 dot_S16x62x62x256_S256x256_S16x62x62x256_3_1_012_0_n_n 256 rfl rfl).symm]
  unfold tap
  refine Finset.sum_congr rfl fun i _ => ?_
  have hi := ValueIdx.contrEquiv1_symm_val dot_S16x62x62x256_S256x256_S16x62x62x256_3_1_012_0_n_n 256 rfl rfl i
  have el : dot_S16x62x62x256_S256x256_S16x62x62x256_3_1_012_0_n_n.lhsIdx j ((ValueIdx.contrEquiv1 dot_S16x62x62x256_S256x256_S16x62x62x256_3_1_012_0_n_n 256 rfl rfl).symm i) = ix4 (j 0) (j 1) (j 2) i := funext fun a => Fin.ext (by
    match a with
    | ⟨0, _⟩ => exact lhs_main_v13_0 _ _
    | ⟨1, _⟩ => exact lhs_main_v13_1 _ _
    | ⟨2, _⟩ => exact lhs_main_v13_2 _ _
    | ⟨3, _⟩ => exact (lhs_main_v13_3 _ _).trans hi)
  have er : dot_S16x62x62x256_S256x256_S16x62x62x256_3_1_012_0_n_n.rhsIdx j ((ValueIdx.contrEquiv1 dot_S16x62x62x256_S256x256_S16x62x62x256_3_1_012_0_n_n 256 rfl rfl).symm i) = ix2 (j 3) i := funext fun a => Fin.ext (by
    match a with
    | ⟨0, _⟩ => exact rhs_main_v13_0 _ _
    | ⟨1, _⟩ => exact (rhs_main_v13_1 _ _).trans hi)
  rw [el, er]
  refine congrArg₂ (· * ·) ?_ ?_
  · exact extractStridedSlice_apply ![0, dh, dw, 0] X hsx (ix4 (j 0) (j 1) (j 2) i)
      (ix4 (j 0) ⟨(j 1).val + dh, shift_lt (j 1) hdh⟩ ⟨(j 2).val + dw, shift_lt (j 2) hdw⟩ i) (fun a => match a with
        | ⟨0, _⟩ => by show (j 0).val = 0 + (j 0).val; omega
        | ⟨1, _⟩ => by show (j 1).val + dh = dh + (j 1).val; omega
        | ⟨2, _⟩ => by show (j 2).val + dw = dw + (j 2).val; omega
        | ⟨3, _⟩ => by show i.val = 0 + i.val; omega)
  · refine (shapeCast_apply _ hc (ix2 (j 3) i) (ix3 0 (j 3) i) ?_).trans ?_
    · rw [Shape.rowMajor_val_three, Shape.rowMajor_val_two]
      show (0 * 256 + (j 3).val) * 256 + i.val = (j 3).val * 256 + i.val
      omega
    · exact extractStridedSlice_apply ![k, 0, 0] WN hsw (ix3 0 (j 3) i) (ix3 ⟨k, hk⟩ (j 3) i) (fun a => match a with
        | ⟨0, _⟩ => by show k = k + 0; omega
        | ⟨1, _⟩ => by show (j 3).val = 0 + (j 3).val; omega
        | ⟨2, _⟩ => by show i.val = 0 + i.val; omega)

/-- The bias spread over batch and positions, at `j`, is the bias of `j`'s channel. -/
theorem bias_at (x2 : Vec Ideal S256 .f32) (j : S16x62x62x256.Idx) : val_main_v35 (F := Ideal) x2 j = x2 (ix1 (j 3)) := by
  rw [val_main_v35_apply, val_main_v34_apply]
  exact congrArg x2 (funext fun a => match a with | ⟨0, _⟩ => rfl)

/-- THE REFERENCE before its final transpose is `conv` of the transposed image, the standardized weights and the bias. -/
theorem stage_eq (x0 : Vec Ideal S16x256x64x64 .f32) (x1 : Vec Ideal S5x256x256 .f32) (x2 : Vec Ideal S256 .f32) :
    val_main_v38 (F := Ideal) x0 x1 x2
      = conv (val_main_v9 (F := Ideal) x0) (val_main_v8 (F := Ideal) x1) (fun o => x2 (ix1 o)) := by
  funext j
  unfold val_main_v38 val_main_v36 val_main_v33 val_main_v28 val_main_v23 val_main_v18
  unfold val_main_v13 val_main_v17 val_main_v22 val_main_v27 val_main_v32
  unfold val_main_v10 val_main_v14 val_main_v19 val_main_v24 val_main_v29
  unfold val_main_v12 val_main_v16 val_main_v21 val_main_v26 val_main_v31
  unfold val_main_v11 val_main_v15 val_main_v20 val_main_v25 val_main_v30
  unfold conv convAt taps
  refine (mulf_apply _ _ _).trans ?_
  refine congrArg₂ (· * ·) ?_ ?_
  · refine (addf_apply _ _ _).trans ?_
    refine congrArg₂ (· + ·) ?_ (bias_at x2 j)
    refine (addf_apply _ _ _).trans ?_
    refine congrArg₂ (· + ·) ?_ (dot_stage _ _ 4 2 2 (by decide) (by decide) (by decide) _ _ _ j)
    refine (addf_apply _ _ _).trans ?_
    refine congrArg₂ (· + ·) ?_ (dot_stage _ _ 3 2 0 (by decide) (by decide) (by decide) _ _ _ j)
    refine (addf_apply _ _ _).trans ?_
    refine congrArg₂ (· + ·) ?_ (dot_stage _ _ 2 1 1 (by decide) (by decide) (by decide) _ _ _ j)
    refine (addf_apply _ _ _).trans ?_
    exact congrArg₂ (· + ·) (dot_stage _ _ 0 0 0 (by decide) (by decide) (by decide) _ _ _ j)
      (dot_stage _ _ 1 0 2 (by decide) (by decide) (by decide) _ _ _ j)
  · rw [val_main_v37_apply]; rfl

end Cert.ReferenceIdeal.RefSide

end
-- ==== Proof.Bridge.lean ====
/-
  Both programs compute one function of the arguments.

  Before the region the kernel's host operations transpose the image to channels last, standardize the weights (each
  row has its mean subtracted and is divided by its Euclidean norm) and view the bias as a row: the same operations, in
  the same order and with the same constants, with which the reference begins. So the arrays the region finds are the
  reference's stages of the same arguments, both results are the channels-first transpose of `ConvSpec.conv` of them,
  and no law of arithmetic beyond `0 + a = a` is used: the inputs' finiteness is never needed.
-/
import proofs.«162459_j16673063043688_1_alg».proof.Proof.KernelValue
import proofs.«162459_j16673063043688_1_alg».proof.Proof.RefSide

noncomputable section

namespace Cert.Bridge

open Idealize.ShloMosaic Idealize.ShloMosaic.TcCoe Idealize.ShloMosaic.ValueIdx Idealize.SL.Sem Cert.ConvSpec

variable (m : (ℓ : Loc Cert.KernelIdeal.nD Cert.KernelIdeal.τ Cert.KernelIdeal.sig) → Buf (Elt Ideal) ℓ)

/-- The image as the region finds it: the argument transposed to channels last, the reference's first layout stage. -/
theorem entry_image (c : Dev Cert.KernelIdeal.nD) :
    (Cert.KernelIdeal.Gen.V m c Cert.KernelIdeal.main_v9 : XS.Idx → EReal)
      = Cert.ReferenceIdeal.Read.val_main_v9 (F := Ideal) (m ((c : Thread Cert.KernelIdeal.nD Cert.KernelIdeal.τ).loc Cert.KernelIdeal.main_arg0)) := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil, List.append_nil, List.cons_append, List.nil_append]
  after_results
  rfl

/-- The weights as the region finds them: the argument standardized, the reference's stage of the same name. -/
theorem entry_weights (c : Dev Cert.KernelIdeal.nD) :
    (Cert.KernelIdeal.Gen.V m c Cert.KernelIdeal.main_v8 : WS.Idx → EReal)
      = Cert.ReferenceIdeal.Read.val_main_v8 (F := Ideal) (m ((c : Thread Cert.KernelIdeal.nD Cert.KernelIdeal.τ).loc Cert.KernelIdeal.main_arg1)) := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil, List.append_nil, List.cons_append, List.nil_append]
  after_results
  rfl

/-- The bias row as the region finds it: entry (0, o) is the argument's entry `o`. -/
theorem entry_bias (c : Dev Cert.KernelIdeal.nD) (o : Fin 256) :
    (Cert.KernelIdeal.Gen.V m c Cert.KernelIdeal.main_v10 : (⟨2, ![1, 256]⟩ : Shape).Idx → EReal) (ix2 0 o)
      = m ((c : Thread Cert.KernelIdeal.nD Cert.KernelIdeal.τ).loc Cert.KernelIdeal.main_arg2) (ix1 o) := by
  dsimp only [Cert.KernelIdeal.Gen.V, Cert.KernelIdeal.Gen.V0]
  simp only [Cert.KernelIdeal.Gen.hostOps0, Cert.KernelIdeal.Gen.hostOps0_1, Cert.KernelIdeal.Gen.hostOps0_2, List.flatten_cons, List.flatten_nil, List.append_nil, List.cons_append, List.nil_append]
  after_results
  show shapeCast Cert.KernelIdeal.S1x256 (m ((c : Thread Cert.KernelIdeal.nD Cert.KernelIdeal.τ).loc Cert.KernelIdeal.main_arg2))
    Cert.KernelIdeal.Gen.shapeCasts_S256_S1x256 (ix2 0 o) = _
  refine shapeCast_apply _ _ (ix2 0 o) (ix1 o) ?_
  rw [Shape.rowMajor_val_one, Shape.rowMajor_val_two]
  show o.val = 0 * 256 + o.val
  omega

/-- THE TWO RESULTS: the reference's result term, at arguments equal to the kernel's, is the kernel's result. -/
theorem result_eq (c : Dev Cert.KernelIdeal.nD)
    (a0 : Vec Ideal Cert.ReferenceIdeal.S16x256x64x64 .f32) (a1 : Vec Ideal Cert.ReferenceIdeal.S5x256x256 .f32) (a2 : Vec Ideal Cert.ReferenceIdeal.S256 .f32)
    (h0 : a0 = m ((c : Thread Cert.KernelIdeal.nD Cert.KernelIdeal.τ).loc Cert.KernelIdeal.main_arg0))
    (h1 : a1 = m ((c : Thread Cert.KernelIdeal.nD Cert.KernelIdeal.τ).loc Cert.KernelIdeal.main_arg1))
    (h2 : a2 = m ((c : Thread Cert.KernelIdeal.nD Cert.KernelIdeal.τ).loc Cert.KernelIdeal.main_arg2)) :
    Cert.ReferenceIdeal.Read.val_main_v39 (F := Ideal) a0 a1 a2
      = transpose Cert.KernelIdeal.S16x256x62x62 [0, 3, 1, 2] (Cert.KernelIdeal.ArrayValue.G m c)
          Cert.KernelIdeal.Gen.transposes_S16x62x62x256_S16x256x62x62_0_3_1_2 := by
  subst h0 h1 h2
  unfold Cert.ReferenceIdeal.Read.val_main_v39
  rw [Cert.ReferenceIdeal.RefSide.stage_eq]
  have hb : (fun o : Fin 256 => m ((c : Thread Cert.KernelIdeal.nD Cert.KernelIdeal.τ).loc Cert.KernelIdeal.main_arg2) (ix1 o))
      = fun o => Cert.KernelIdeal.Gen.V m c Cert.KernelIdeal.main_v10 (ix2 0 o) := funext fun o => (entry_bias m c o).symm
  have hG : conv (Cert.ReferenceIdeal.Read.val_main_v9 (F := Ideal) (m ((c : Thread Cert.KernelIdeal.nD Cert.KernelIdeal.τ).loc Cert.KernelIdeal.main_arg0)))
        (Cert.ReferenceIdeal.Read.val_main_v8 (F := Ideal) (m ((c : Thread Cert.KernelIdeal.nD Cert.KernelIdeal.τ).loc Cert.KernelIdeal.main_arg1)))
        (fun o : Fin 256 => m ((c : Thread Cert.KernelIdeal.nD Cert.KernelIdeal.τ).loc Cert.KernelIdeal.main_arg2) (ix1 o))
      = Cert.KernelIdeal.ArrayValue.G m c := by
    rw [hb, ← entry_image m c, ← entry_weights m c]
  rw [hG]

end Cert.Bridge

end
-- ==== Proof.lean ====
/-
  The certificate of a five-tap sparse 3x3 convolution kernel against its reference, over the extended reals.

  Both programs standardize the weights on the host (mean-subtract each row, divide by its norm), transpose the image to
  channels last, and return, transposed back to channels first,

      out[b, h, w, o] = ( Σ_k Σ_i x[b, h + dh_k, w + dw_k, i] · Wn[k, o, i] + bias[o] ) · c

  (`ConvSpec.conv`). The kernel, one grid point per batch entry, multiplies the WHOLE 64 x 64 image block by each tap's
  weights and crops the product at the tap's offset; the reference crops the image first and multiplies the crop. A
  product of a row by a matrix depends on that row only, so cropping commutes with it, and at the ideal values both are
  the same sum over the 256 input channels (Proof/KernelBody.lean, Proof/RefSide.lean). The kernel's accumulator starts
  at zero, which adds nothing. Proof/KernelValue.lean carries the body's result from the blocks to the output array and
  through the final transpose; Proof/Bridge.lean identifies the two programs' host preludes.

  The three frames are the generated frame runs (the reference's its generated run with the result dropped); the
  idealization rewrote nothing, so `preserves` is trivial.
-/
import proofs.«162459_j16673063043688_1_alg».proof.Defs
import proofs.«162459_j16673063043688_1_alg».proof.Proof.Gen.Kernel
import proofs.«162459_j16673063043688_1_alg».proof.Proof.Gen.Kernel.Skeleton
import proofs.«162459_j16673063043688_1_alg».proof.Proof.Gen.Kernel.Launch
import proofs.«162459_j16673063043688_1_alg».proof.Proof.Gen.Kernel.Points
import proofs.«162459_j16673063043688_1_alg».proof.Proof.Gen.Kernel.Frame
import proofs.«162459_j16673063043688_1_alg».proof.Proof.Gen.KernelIdeal
import proofs.«162459_j16673063043688_1_alg».proof.Proof.Gen.KernelIdeal.Skeleton
import proofs.«162459_j16673063043688_1_alg».proof.Proof.Gen.KernelIdeal.Launch
import proofs.«162459_j16673063043688_1_alg».proof.Proof.Gen.KernelIdeal.Points
import proofs.«162459_j16673063043688_1_alg».proof.Proof.Gen.KernelIdeal.Frame
import proofs.«162459_j16673063043688_1_alg».proof.Proof.Gen.ReferenceIdeal
import proofs.«162459_j16673063043688_1_alg».proof.Proof.Gen.ReferenceIdeal.Run
import proofs.«162459_j16673063043688_1_alg».proof.Proof.Gen.ReferenceIdeal.Read
import proofs.«162459_j16673063043688_1_alg».proof.Proof.Gen.Pre_finite_inputs
import proofs.«162459_j16673063043688_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments both programs end with the channels-first transpose of `conv` of the
    channels-last image, the standardized weights and the bias. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq]
  exact Cert.Bridge.result_eq m c _ _ _ (hagree c).1 (hagree c).2.1 (hagree c).2.2

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
